-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x512x512 : Shape := ⟨4, ![32, 3, 512, 512]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel

variable [Facts]

def fn {F : FTy → Type} [FloatOps F] (main_arg0 : FVec F S32x3x512x512 .f32) (main_arg1 : FVec F S32x3x512x512 .f32) : IVec S_ 1 :=
  let main_v0 : FVec F S32x3x512x512 .f32 := Host.absf main_arg0
  let main_cst : FVec F S_ .f32 := constant S_ .f32 0x7F800000#32
  let main_v1 : FVec F S32x3x512x512 .f32 := broadcastInDim S32x3x512x512 ![] bcast_S_S32x3x512x512 main_cst
  let main_v2 : IVec S32x3x512x512 1 := cmpf .olt main_v0 main_v1
  let main_c : IVec S_ 1 := constantI S_ 1 1#1
  let main_v3 : IVec S_ 1 := (fun x v => Host.reduce IntOp.andi x v reducesTo_S32x3x512x512_S_d0_1_2_3 h_S_) main_v2 main_c
  let main_v4 : FVec F S32x3x512x512 .f32 := Host.absf main_arg1
  let main_cst_0 : FVec F S_ .f32 := constant S_ .f32 0x7F800000#32
  let main_v5 : FVec F S32x3x512x512 .f32 := broadcastInDim S32x3x512x512 ![] bcast_S_S32x3x512x512 main_cst_0
  let main_v6 : IVec S32x3x512x512 1 := cmpf .olt main_v4 main_v5
  let main_c_1 : IVec S_ 1 := constantI S_ 1 1#1
  let main_v7 : IVec S_ 1 := (fun x v => Host.reduce IntOp.andi x v reducesTo_S32x3x512x512_S_d0_1_2_3 h_S_) main_v6 main_c_1
  let main_v8 : IVec S_ 1 := andi main_v3 main_v7
  main_v8
-- ==== Kernel.lean ====
abbrev S32x3x512x512 : Shape := ⟨4, ![32, 3, 512, 512]⟩
abbrev S3 : Shape := ⟨1, ![3]⟩
abbrev S96x262144 : Shape := ⟨2, ![96, 262144]⟩
abbrev S96x1 : Shape := ⟨2, ![96, 1]⟩
abbrev S96x8192 : Shape := ⟨2, ![96, 8192]⟩
abbrev S96 : Shape := ⟨1, ![96]⟩
abbrev S96x256 : Shape := ⟨2, ![96, 256]⟩
abbrev S96x128 : Shape := ⟨2, ![96, 128]⟩
abbrev S1x1x256 : Shape := ⟨3, ![1, 1, 256]⟩
abbrev S96x128x1 : Shape := ⟨3, ![96, 128, 1]⟩
abbrev S96x128x256 : Shape := ⟨3, ![96, 128, 256]⟩
abbrev S96x255 : Shape := ⟨2, ![96, 255]⟩
abbrev S32x3x255 : Shape := ⟨3, ![32, 3, 255]⟩
abbrev S_ : Shape := ⟨0, ![]⟩
abbrev S3x1 : Shape := ⟨2, ![3, 1]⟩

abbrev nBuf : Space → Nat
  | .hbm => 24
  | .vmem => 9
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S3, .i32⟩
  | .hbm, ⟨3, _⟩ => ⟨S96x262144, .f32⟩
  | .hbm, ⟨4, _⟩ => ⟨S96x1, .f32⟩
  | .hbm, ⟨5, _⟩ => ⟨S96x1, .f32⟩
  | .hbm, ⟨6, _⟩ => ⟨S96x256, .f32⟩
  | .hbm, ⟨7, _⟩ => ⟨S96x255, .f32⟩
  | .hbm, ⟨8, _⟩ => ⟨S32x3x255, .f32⟩
  | .hbm, ⟨9, _⟩ => ⟨S_, .i32⟩
  | .hbm, ⟨10, _⟩ => ⟨S3, .i32⟩
  | .hbm, ⟨11, _⟩ => ⟨S3, .i1⟩
  | .hbm, ⟨12, _⟩ => ⟨S_, .i32⟩
  | .hbm, ⟨13, _⟩ => ⟨S3, .i32⟩
  | .hbm, ⟨14, _⟩ => ⟨S3, .i32⟩
  | .hbm, ⟨15, _⟩ => ⟨S3, .i32⟩
  | .hbm, ⟨16, _⟩ => ⟨S3x1, .i32⟩
  | .hbm, ⟨17, _⟩ => ⟨S32x3x255, .f32⟩
  | .hbm, ⟨18, _⟩ => ⟨S32x3x255, .f32⟩
  | .hbm, ⟨19, _⟩ => ⟨S32x3x255, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S96x8192, .f32⟩
  | .local _ .vmem, ⟨1, _⟩ => ⟨S96x8192, .f32⟩
  | .local _ .vmem, ⟨2, _⟩ => ⟨S96x1, .f32⟩
  | .local _ .vmem, ⟨3, _⟩ => ⟨S96x1, .f32⟩
  | .local _ .vmem, ⟨4, _⟩ => ⟨S96x128, .f32⟩
  | .local _ .vmem, ⟨5, _⟩ => ⟨S96x128, .f32⟩
  | .local _ .vmem, ⟨6, _⟩ => ⟨S96x1, .f32⟩
  | .local _ .vmem, ⟨7, _⟩ => ⟨S96x1, .f32⟩
  | .local _ .vmem, ⟨8, _⟩ => ⟨S96x256, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S96x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S96x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![2048], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S96x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S96x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S96x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S96x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  shapeCasts_S32x3x512x512_S96x262144 : S32x3x512x512.ShapeCasts S96x262144
  inb_S96x1_S96x1_0_0 : ∀ a, (![0, 0] : Fin 2 → Nat) a + S96x1.size a ≤ S96x1.size a
  h_S96x1 : 0 < S96x1.numel
  inb_S96x8192_S96x8192_0_0 : ∀ a, (![0, 0] : Fin 2 → Nat) a + S96x8192.size a ≤ S96x8192.size a
  h_S96x8192 : 0 < S96x8192.numel
  shapeCasts_S96x8192_S96x8192 : S96x8192.ShapeCasts S96x8192
  shapeCasts_S96x1_S96x1 : S96x1.ShapeCasts S96x1
  reduces_S96x8192_S96 : S96x8192.Reduces [1] S96
  shapeCasts_S96_S96x1 : S96.ShapeCasts S96x1
  inb_S96x256_S96x256_0_0 : ∀ a, (![0, 0] : Fin 2 → Nat) a + S96x256.size a ≤ S96x256.size a
  h_S96x256 : 0 < S96x256.numel
  inb_S96x128_S96x128_0_0 : ∀ a, (![0, 0] : Fin 2 → Nat) a + S96x128.size a ≤ S96x128.size a
  h_S96x128 : 0 < S96x128.numel
  shapeCasts_S96x128_S96x128 : S96x128.ShapeCasts S96x128
  broadcasts_S96x1_S96x128 : S96x1.Broadcasts S96x128
  iota_S1x1x256_d2_w32 : S1x1x256.Iotas .tc 32 [2]
  shapeCasts_S96x128_S96x128x1 : S96x128.ShapeCasts S96x128x1
  broadcasts_S96x128x1_S96x128x256 : S96x128x1.Broadcasts S96x128x256
  broadcasts_S1x1x256_S96x128x256 : S1x1x256.Broadcasts S96x128x256
  natLt_1_32 : 1 < 32
  reduces_S96x128x256_S96x256 : S96x128x256.Reduces [1] S96x256
  shapeCasts_S96x256_S96x256 : S96x256.ShapeCasts S96x256
  slices_S96x256_S96x255_0_0 : S96x256.Slices ![0, 0] S96x255
  shapeCasts_S96x255_S32x3x255 : S96x255.ShapeCasts S32x3x255
  bcast_S_S3 : S_.BroadcastsInDim S3 (![] : Fin 0 → Fin S3.rank)
  bcast_S3_S3x1_0 : S3.BroadcastsInDim S3x1 (![0] : Fin 1 → Fin S3x1.rank)
  reducesTo_S32x3x255_S_d0_1_2 : S32x3x255.ReducesTo [0, 1, 2] S_
  h_S_ : 0 < S_.numel
  gather_S32x3x255_S3x1_S32x3x255_02_1_n_n_1_1_321255_wf : GatherDims.WF S32x3x255 S3x1 S32x3x255 [0, 2] [1] [] [1] [] 1 ![32, 1, 255]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S96x8192.size a ≤ S96x262144.size a
  hwx0_0 : ∀ i : grid0.Coords, EltTy.bits .f32 = 32 ∨ (Rect.block (s := S96x262144) S96x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x1.size a ≤ S96x1.size a
  hwx0_1 : ∀ i : grid0.Coords, EltTy.bits .f32 = 32 ∨ (Rect.block (s := S96x1) S96x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x1.size a ≤ S96x1.size a
  hwx0_2 : ∀ i : grid0.Coords, EltTy.bits .f32 = 32 ∨ (Rect.block (s := S96x1) S96x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S96x128.size a ≤ S96x262144.size a
  hwx1_0 : ∀ i : grid1.Coords, EltTy.bits .f32 = 32 ∨ (Rect.block (s := S96x262144) S96x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S96x1.size a ≤ S96x1.size a
  hwx1_1 : ∀ i : grid1.Coords, EltTy.bits .f32 = 32 ∨ (Rect.block (s := S96x1) S96x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x1.size a ≤ S96x1.size a
  hwx1_2 : ∀ i : grid1.Coords, EltTy.bits .f32 = 32 ∨ (Rect.block (s := S96x1) S96x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S96x256.size a ≤ S96x256.size a
  hwx1_3 : ∀ i : grid1.Coords, EltTy.bits .f32 = 32 ∨ (Rect.block (s := S96x256) S96x256.size (cc1_transform_3 i) (hinb1_3 i)).WholeWords (EltTy.packing .f32)

variable [Facts₀]

def gather_S32x3x255_S3x1_S32x3x255_02_1_n_n_1_1_321255 : GatherDims S32x3x255 S3x1 S32x3x255 where
  offsetDims := [0, 2]
  collapsedSliceDims := [1]
  operandBatchingDims := []
  startIndicesBatchingDims := []
  startIndexMap := [1]
  indexVectorDim := 1
  sliceSizes := ![32, 1, 255]
  wf := gather_S32x3x255_S3x1_S32x3x255_02_1_n_n_1_1_321255_wf

abbrev win0_0 : Pipeline.Window sig grid0 :=
  Pipeline.Window.ofSpec (Memref.whole main_v0) S96x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S96x1.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S96x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S96x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S96x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1_1) S96x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S96x256.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32x3x512x512 : Shape := ⟨4, ![32, 3, 512, 512]⟩
abbrev S3 : Shape := ⟨1, ![3]⟩
abbrev S_ : Shape := ⟨0, ![]⟩
abbrev S32x3x262144 : Shape := ⟨3, ![32, 3, 262144]⟩
abbrev S32x3 : Shape := ⟨2, ![32, 3]⟩
abbrev S32x3x1 : Shape := ⟨3, ![32, 3, 1]⟩
abbrev S32 : Shape := ⟨1, ![32]⟩
abbrev S32x1x1 : Shape := ⟨3, ![32, 1, 1]⟩
abbrev S1x3x1 : Shape := ⟨3, ![1, 3, 1]⟩
abbrev S32x3x255 : Shape := ⟨3, ![32, 3, 255]⟩
abbrev S32x3x262144x1 : Shape := ⟨4, ![32, 3, 262144, 1]⟩
abbrev S32x3x262144x3 : Shape := ⟨4, ![32, 3, 262144, 3]⟩
abbrev S3x1 : Shape := ⟨2, ![3, 1]⟩

abbrev nBuf : Space → Nat
  | .hbm => 87
  | .vmem => 0
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S3, .i32⟩
  | .hbm, ⟨3, _⟩ => ⟨S_, .f32⟩
  | .hbm, ⟨4, _⟩ => ⟨S32x3x512x512, .f32⟩
  | .hbm, ⟨5, _⟩ => ⟨S32x3x512x512, .f32⟩
  | .hbm, ⟨6, _⟩ => ⟨S32x3x512x512, .f32⟩
  | .hbm, ⟨7, _⟩ => ⟨S32x3x262144, .f32⟩
  | .hbm, ⟨8, _⟩ => ⟨S_, .f32⟩
  | .hbm, ⟨9, _⟩ => ⟨S32x3, .f32⟩
  | .hbm, ⟨10, _⟩ => ⟨S32x3x1, .f32⟩
  | .hbm, ⟨11, _⟩ => ⟨S_, .f32⟩
  | .hbm, ⟨12, _⟩ => ⟨S32x3, .f32⟩
  | .hbm, ⟨13, _⟩ => ⟨S32x3x1, .f32⟩
  | .hbm, ⟨14, _⟩ => ⟨S32x3x1, .i1⟩
  | .hbm, ⟨15, _⟩ => ⟨S32x3x1, .f32⟩
  | .hbm, ⟨16, _⟩ => ⟨S_, .f32⟩
  | .hbm, ⟨17, _⟩ => ⟨S32x3x1, .f32⟩
  | .hbm, ⟨18, _⟩ => ⟨S32x3x1, .f32⟩
  | .hbm, ⟨19, _⟩ => ⟨S32x3x262144, .f32⟩
  | .hbm, ⟨20, _⟩ => ⟨S32x3x262144, .f32⟩
  | .hbm, ⟨21, _⟩ => ⟨S32x3x262144, .f32⟩
  | .hbm, ⟨22, _⟩ => ⟨S32x3x262144, .f32⟩
  | .hbm, ⟨23, _⟩ => ⟨S_, .f32⟩
  | .hbm, ⟨24, _⟩ => ⟨S32x3x262144, .f32⟩
  | .hbm, ⟨25, _⟩ => ⟨S32x3x262144, .f32⟩
  | .hbm, ⟨26, _⟩ => ⟨S32x3x262144, .f32⟩
  | .hbm, ⟨27, _⟩ => ⟨S_, .i32⟩
  | .hbm, ⟨28, _⟩ => ⟨S_, .i32⟩
  | .hbm, ⟨29, _⟩ => ⟨S_, .f32⟩
  | .hbm, ⟨30, _⟩ => ⟨S32x3x262144, .f32⟩
  | .hbm, ⟨31, _⟩ => ⟨S32x3x262144, .f32⟩
  | .hbm, ⟨32, _⟩ => ⟨S_, .f32⟩
  | .hbm, ⟨33, _⟩ => ⟨S32x3x262144, .f32⟩
  | .hbm, ⟨34, _⟩ => ⟨S32x3x262144, .f32⟩
  | .hbm, ⟨35, _⟩ => ⟨S32x3x262144, .i32⟩
  | .hbm, ⟨36, _⟩ => ⟨S32, .i32⟩
  | .hbm, ⟨37, _⟩ => ⟨S32x1x1, .i32⟩
  | .hbm, ⟨38, _⟩ => ⟨S3, .i32⟩
  | .hbm, ⟨39, _⟩ => ⟨S1x3x1, .i32⟩
  | .hbm, ⟨40, _⟩ => ⟨S_, .f32⟩
  | .hbm, ⟨41, _⟩ => ⟨S32x3x255, .f32⟩
  | .hbm, ⟨42, _⟩ => ⟨S_, .i32⟩
  | .hbm, ⟨43, _⟩ => ⟨S32x1x1, .i32⟩
  | .hbm, ⟨44, _⟩ => ⟨S32x1x1, .i1⟩
  | .hbm, ⟨45, _⟩ => ⟨S_, .i32⟩
  | .hbm, ⟨46, _⟩ => ⟨S32x1x1, .i32⟩
  | .hbm, ⟨47, _⟩ => ⟨S32x1x1, .i32⟩
  | .hbm, ⟨48, _⟩ => ⟨S32x1x1, .i32⟩
  | .hbm, ⟨49, _⟩ => ⟨S_, .i32⟩
  | .hbm, ⟨50, _⟩ => ⟨S1x3x1, .i32⟩
  | .hbm, ⟨51, _⟩ => ⟨S1x3x1, .i1⟩
  | .hbm, ⟨52, _⟩ => ⟨S_, .i32⟩
  | .hbm, ⟨53, _⟩ => ⟨S1x3x1, .i32⟩
  | .hbm, ⟨54, _⟩ => ⟨S1x3x1, .i32⟩
  | .hbm, ⟨55, _⟩ => ⟨S1x3x1, .i32⟩
  | .hbm, ⟨56, _⟩ => ⟨S_, .i32⟩
  | .hbm, ⟨57, _⟩ => ⟨S32x3x262144, .i32⟩
  | .hbm, ⟨58, _⟩ => ⟨S32x3x262144, .i1⟩
  | .hbm, ⟨59, _⟩ => ⟨S_, .i32⟩
  | .hbm, ⟨60, _⟩ => ⟨S32x3x262144, .i32⟩
  | .hbm, ⟨61, _⟩ => ⟨S32x3x262144, .i32⟩
  | .hbm, ⟨62, _⟩ => ⟨S32x3x262144, .i32⟩
  | .hbm, ⟨63, _⟩ => ⟨S32x3x262144, .i32⟩
  | .hbm, ⟨64, _⟩ => ⟨S32x3x262144, .i32⟩
  | .hbm, ⟨65, _⟩ => ⟨S32x3x262144x1, .i32⟩
  | .hbm, ⟨66, _⟩ => ⟨S32x3x262144x1, .i32⟩
  | .hbm, ⟨67, _⟩ => ⟨S32x3x262144x1, .i32⟩
  | .hbm, ⟨68, _⟩ => ⟨S32x3x262144x3, .i32⟩
  | .hbm, ⟨69, _⟩ => ⟨S_, .f32⟩
  | .hbm, ⟨70, _⟩ => ⟨S32x3x262144, .f32⟩
  | .hbm, ⟨71, _⟩ => ⟨S32x3x255, .f32⟩
  | .hbm, ⟨72, _⟩ => ⟨S_, .i32⟩
  | .hbm, ⟨73, _⟩ => ⟨S3, .i32⟩
  | .hbm, ⟨74, _⟩ => ⟨S3, .i1⟩
  | .hbm, ⟨75, _⟩ => ⟨S_, .i32⟩
  | .hbm, ⟨76, _⟩ => ⟨S3, .i32⟩
  | .hbm, ⟨77, _⟩ => ⟨S3, .i32⟩
  | .hbm, ⟨78, _⟩ => ⟨S3, .i32⟩
  | .hbm, ⟨79, _⟩ => ⟨S3x1, .i32⟩
  | .hbm, ⟨80, _⟩ => ⟨S32x3x255, .f32⟩
  | .hbm, ⟨81, _⟩ => ⟨S32x3x255, .f32⟩
  | .hbm, ⟨82, _⟩ => ⟨S32x3x255, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_4 : Ref sig .tc := ⟨.hbm, 27, rfl⟩
abbrev main_c_5 : Ref sig .tc := ⟨.hbm, 28, rfl⟩
abbrev main_call2_v0 : Ref sig .tc := ⟨.hbm, 29, rfl⟩
abbrev main_call2_v1 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_c_7 : Ref sig .tc := ⟨.hbm, 42, rfl⟩
abbrev main_v26 : Ref sig .tc := ⟨.hbm, 43, rfl⟩
abbrev main_v27 : Ref sig .tc := ⟨.hbm, 44, rfl⟩
abbrev main_c_8 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_9 : Ref sig .tc := ⟨.hbm, 49, rfl⟩
abbrev main_v31 : Ref sig .tc := ⟨.hbm, 50, rfl⟩
abbrev main_v32 : Ref sig .tc := ⟨.hbm, 51, rfl⟩
abbrev main_c_10 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_11 : Ref sig .tc := ⟨.hbm, 56, rfl⟩
abbrev main_v36 : Ref sig .tc := ⟨.hbm, 57, rfl⟩
abbrev main_v37 : Ref sig .tc := ⟨.hbm, 58, rfl⟩
abbrev main_c_12 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_13 : Ref sig .tc := ⟨.hbm, 69, rfl⟩
abbrev main_v47 : Ref sig .tc := ⟨.hbm, 70, rfl⟩
abbrev main_v48 : Ref sig .tc := ⟨.hbm, 71, rfl⟩
abbrev main_c_14 : Ref sig .tc := ⟨.hbm, 72, rfl⟩
abbrev main_v49 : Ref sig .tc := ⟨.hbm, 73, rfl⟩
abbrev main_v50 : Ref sig .tc := ⟨.hbm, 74, rfl⟩
abbrev main_c_15 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_16 : Ref sig .tc := ⟨.hbm, 83, rfl⟩
abbrev main_v58 : Ref sig .tc := ⟨.hbm, 84, rfl⟩
abbrev main_cst_17 : Ref sig .tc := ⟨.hbm, 85, rfl⟩
abbrev main_v59 : Ref sig .tc := ⟨.hbm, 86, rfl⟩

abbrev nD : Nat := 1
abbrev τ : Topo := Topo.v7x

variable {F : FTy → Type} [FloatOps F]

class Facts₀ : Prop where
  bcast_S_S32x3x512x512 : S_.BroadcastsInDim S32x3x512x512 (![] : Fin 0 → Fin S32x3x512x512.rank)
  shapeCasts_S32x3x512x512_S32x3x262144 : S32x3x512x512.ShapeCasts S32x3x262144
  reducesTo_S32x3x262144_S32x3_d2 : S32x3x262144.ReducesTo [2] S32x3
  h_S_ : 0 < S_.numel
  bcast_S32x3_S32x3x1_0_1 : S32x3.BroadcastsInDim S32x3x1 (![0, 1] : Fin 2 → Fin S32x3x1.rank)
  bcast_S_S32x3x1 : S_.BroadcastsInDim S32x3x1 (![] : Fin 0 → Fin S32x3x1.rank)
  bcast_S32x3x1_S32x3x262144_0_1_2 : S32x3x1.BroadcastsInDim S32x3x262144 (![0, 1, 2] : Fin 3 → Fin S32x3x262144.rank)
  bcast_S_S32x3x262144 : S_.BroadcastsInDim S32x3x262144 (![] : Fin 0 → Fin S32x3x262144.rank)
  bcast_S32_S32x1x1_0 : S32.BroadcastsInDim S32x1x1 (![0] : Fin 1 → Fin S32x1x1.rank)
  bcast_S3_S1x3x1_1 : S3.BroadcastsInDim S1x3x1 (![1] : Fin 1 → Fin S1x3x1.rank)
  bcast_S_S32x3x255 : S_.BroadcastsInDim S32x3x255 (![] : Fin 0 → Fin S32x3x255.rank)
  bcast_S_S32x1x1 : S_.BroadcastsInDim S32x1x1 (![] : Fin 0 → Fin S32x1x1.rank)
  bcast_S_S1x3x1 : S_.BroadcastsInDim S1x3x1 (![] : Fin 0 → Fin S1x3x1.rank)
  bcast_S32x1x1_S32x3x262144_0_1_2 : S32x1x1.BroadcastsInDim S32x3x262144 (![0, 1, 2] : Fin 3 → Fin S32x3x262144.rank)
  bcast_S1x3x1_S32x3x262144_0_1_2 : S1x3x1.BroadcastsInDim S32x3x262144 (![0, 1, 2] : Fin 3 → Fin S32x3x262144.rank)
  bcast_S32x3x262144_S32x3x262144x1_0_1_2 : S32x3x262144.BroadcastsInDim S32x3x262144x1 (![0, 1, 2] : Fin 3 → Fin S32x3x262144x1.rank)
  concatenates_S32x3x262144x1_S32x3x262144x1_S32x3x262144x1_S32x3x262144x3_d3 : Shape.Concatenates [S32x3x262144x1, S32x3x262144x1, S32x3x262144x1] S32x3x262144x3 3
  bcast_S_S3 : S_.BroadcastsInDim S3 (![] : Fin 0 → Fin S3.rank)
  bcast_S3_S3x1_0 : S3.BroadcastsInDim S3x1 (![0] : Fin 1 → Fin S3x1.rank)
  reducesTo_S32x3x255_S_d0_1_2 : S32x3x255.ReducesTo [0, 1, 2] S_
  scatter_S32x3x255_S32x3x262144x3_S32x3x262144_n_012_012_3_wf : ScatterDims.WF S32x3x255 S32x3x262144x3 S32x3x262144 [] [0, 1, 2] [0, 1, 2] 3
  gather_S32x3x255_S3x1_S32x3x255_02_1_n_n_1_1_321255_wf : GatherDims.WF S32x3x255 S3x1 S32x3x255 [0, 2] [1] [] [1] [] 1 ![32, 1, 255]

variable [Facts₀]

def scatter_S32x3x255_S32x3x262144x3_S32x3x262144_n_012_012_3 : ScatterDims S32x3x255 S32x3x262144x3 S32x3x262144 where
  updateWindowDims := []
  insertedWindowDims := [0, 1, 2]
  scatterDimsToOperandDims := [0, 1, 2]
  indexVectorDim := 3
  wf := scatter_S32x3x255_S32x3x262144x3_S32x3x262144_n_012_012_3_wf
def gather_S32x3x255_S3x1_S32x3x255_02_1_n_n_1_1_321255 : GatherDims S32x3x255 S3x1 S32x3x255 where
  offsetDims := [0, 2]
  collapsedSliceDims := [1]
  operandBatchingDims := []
  startIndicesBatchingDims := []
  startIndexMap := [1]
  indexVectorDim := 1
  sliceSizes := ![32, 1, 255]
  wf := gather_S32x3x255_S3x1_S32x3x255_02_1_n_n_1_1_321255_wf

class Facts : Prop extends Facts₀ where

variable [Facts]
-- ==== Proof.LibFinite.lean ====
/-
  Extended reals that are real numbers, and what a histogram's self-difference comes to.

  At the ideal instance a float is an extended real, and `x - x` is `0` only when `x` is neither
  infinity (`⊤ - ⊤ = ⊥` there). A count — a sum of integers read as reals, or a zero plus a sum of
  ones — is a real number, so the difference of a table of counts with itself is the zero table, its
  absolute value is zero, and the sum of those zeros from a zero start is zero. The lemmas are stated
  for any shapes and any gather, since a gather only re-reads entries of its operand.
-/
import Idealize.ShloMosaic.PureOps
import Idealize.ShloMosaic.PureOps.Ideal
import Idealize.ShloMosaic.PureOps.Ideal.Laws

noncomputable section

namespace Cert.LibFinite

open Idealize.ShloMosaic

/-- An extended real that is a real number: neither infinity. -/
def IsReal (x : EReal) : Prop := ∃ r : ℝ, x = (r : EReal)

theorem isReal_zero : IsReal 0 := ⟨0, EReal.coe_zero.symm⟩

theorem isReal_coe (r : ℝ) : IsReal (r : EReal) := ⟨r, rfl⟩

/-- The sum of two reals is a real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A finite sum of reals is a real. -/
theorem isReal_sum {ι : Type} (s : Finset ι) (f : ι → EReal) (h : ∀ i ∈ s, IsReal (f i)) :
    IsReal (∑ i ∈ s, f i) :=
  Finset.sum_induction f IsReal (fun _ _ => IsReal.add) isReal_zero h

/-- A real minus itself is zero (false at the infinities). -/
theorem IsReal.sub_self {x : EReal} (hx : IsReal x) : x - x = 0 := by
  obtain ⟨a, rfl⟩ := hx
  rw [← EReal.coe_sub, _root_.sub_self, EReal.coe_zero]

/-- An f32 pattern whose exponent field is not all ones denotes a real (the all-ones exponent is the infinities
    and the patterns with no number). -/
theorem isReal_ofBits_f32 (b : BitVec 32) (h : (b.extractLsb' 23 8).toNat ≠ 255) : IsReal (Ideal.ofBits .f32 b) := by
  show IsReal (Ideal.ieee 8 23 b)
  unfold Ideal.ieee
  dsimp only
  rw [if_neg (by simpa using h)]
  split <;> exact isReal_coe _

/-- An integer converted to a float is a real, entry by entry. -/
theorem isReal_sitofp {s : Shape} {w : Nat} (v : IVec s w) (i : s.Idx) :
    IsReal (sitofp (F := Ideal) .f32 v i) :=
  isReal_coe _

/-- A lane sum of converted integers is a real at every index, whatever axes are summed. -/
theorem isReal_multiReduction_sitofp {s t : Shape} {w : Nat} {axes : List (Fin s.rank)} (v : IVec s w)
    (acc : BitVec (FTy.f32).bits) (h : s.Reduces axes t) (hφ : FKind.Formats .f32)
    (hacc : acc = FKind.add.neutral .f32 hφ) (j : t.Idx) :
    IsReal (multiReduction (F := Ideal) .add axes t (sitofp (F := Ideal) .f32 v) acc h hφ hacc j) := by
  show IsReal (Ideal.reduceAdd h (sitofp (F := Ideal) .f32 v) j)
  unfold Ideal.reduceAdd
  exact isReal_sum _ _ fun i _ => isReal_sitofp v i

/-- Adding such a lane sum to a table of reals leaves a table of reals. -/
theorem isReal_addf {s : Shape} (x y : FVec Ideal s .f32) (hx : ∀ i, IsReal (x i)) (hy : ∀ i, IsReal (y i))
    (i : s.Idx) : IsReal (addf x y i) :=
  (hx i).add (hy i)

/-- The host's accumulating scatter of a table of reals by updates that are reals is a table of reals: each
    entry is the operand's plus the finite sum of the updates that land on it. -/
theorem isReal_scatterAdd {s si su : Shape} {w : Nat} (d : ScatterDims s si su) (x : FVec Ideal s .f32)
    (idx : IVec si w) (upd : FVec Ideal su .f32) (hx : ∀ i, IsReal (x i)) (hu : ∀ j, IsReal (upd j))
    (i : s.Idx) : IsReal (Host.scatterAdd d x idx upd i) := by
  show IsReal (Ideal.hostScatterAdd d x idx upd i)
  unfold Ideal.hostScatterAdd
  exact (hx i).add (isReal_sum _ _ fun j _ => hu j)

/-- The mean-absolute-difference of a gathered table of reals with itself, before the division: the sum, from a
    zero start, of `|g - g|` over all entries of `g = gather x` is zero, because each `g i` is an entry of `x`. -/
theorem sum_abs_sub_self_gather {s si t u r : Shape} {w : Nat} {axes : List (Fin t.rank)} (d : GatherDims s si t)
    (x : FVec Ideal s .f32) (idx : IVec si w) (hx : ∀ i, IsReal (x i))
    (h : t.ReducesTo axes u) (hr : 0 < r.numel) :
    Host.reduceAdd (Host.absf (subf (Host.gather d x idx) (Host.gather d x idx))) (constant r .f32 0x00000000#32) h hr
      = fun _ => (0 : EReal) := by
  funext j
  show Ideal.hostReduceAdd h _ (Ideal.ofBits .f32 0x00000000#32) j = 0
  unfold Ideal.hostReduceAdd
  rw [Ideal.ofBits_zero_f32, zero_add]
  refine Finset.sum_eq_zero fun i _ => ?_
  show max (x (d.operandIdx i idx) - x (d.operandIdx i idx)) (-(x (d.operandIdx i idx) - x (d.operandIdx i idx))) = 0
  rw [(hx _).sub_self, neg_zero, max_self]

end Cert.LibFinite

end
-- ==== Proof.KHist.lean ====
/-
  The histogram the second kernel accumulates is a table of real numbers.

  At each grid point the kernel adds, to what its output block held, a lane sum of zeros and ones: for every
  (row, bin) the number of the point's 128 pixels whose bin number equals the bin, each comparison bit widened to an
  integer and converted to a float. At the first point the block is first reset to zero. Whatever the pixels, the rows'
  extremes and the bin numbers are — they may be infinite or junk at the ideal instance — the summands are
  converted INTEGERS, hence reals, and a real plus a finite sum of reals is a real. So by induction on the grid point
  every entry of the block is a real after every point, and the array written back after the last point is a table
  of reals.
-/
import proofs.«178433_j56521769615944_1_alg».proof.Proof.Gen.KernelIdeal.Frame
import proofs.«178433_j56521769615944_1_alg».proof.Proof.LibFinite
import Idealize.ShloMosaic.Lib.Pipeline.Value
import Idealize.ShloMosaic.Lib.Tactic

noncomputable section

namespace Cert.KernelIdeal.Hist

open Cert.KernelIdeal Cert.KernelIdeal.Gen Cert.LibFinite
open Idealize.ShloMosaic Idealize.ShloMosaic.TcCoe Idealize.SL.Sem
open Idealize.ShloMosaic.Pipeline (Dat)

/-! ## What each case of the body leaves in the output block -/

section Pieces

variable {F : FTy → Type} [FloatOps F]

theorem hz : (![0, 0] : Fin 2 → Nat) = fun _ => 0 := funext fun a => by fin_cases a <;> rfl

/-- At a point that is not the first, the body leaves in the output block holding `xo` the accumulating payload of
    the point's pixels, the rows' extremes and `xo`: its one store covers the block, its loads read whole buffers. -/
theorem out_B_eq (c : Dev nD) (i : grid1.Coords) (a1 : Memref sig .tc .vmem S96x128 .f32) (h1 : a1.IsWhole)
    (a2 : Memref sig .tc .vmem S96x1 .f32) (h2 : a2.IsWhole) (a3 : Memref sig .tc .vmem S96x1 .f32) (h3 : a3.IsWhole)
    (a4 : Memref sig .tc .vmem S96x256 .f32) (h4 : a4.IsWhole) (hc : ¬cond1_0 i)
    (x0 : Vec F S96x128 .f32) (x1 : Vec F S96x1 .f32) (x2 : Vec F S96x1 .f32) (xo : Vec F S96x256 .f32) :
    out1_B_3 c i a1 h1 a2 h2 a3 h3 a4 h4 hc x0 x1 x2 xo = k1_pay2 x0 x1 x2 xo := by
  unfold out1_B_3
  rw [View.read_writes_eq_canon _ _ _ (cover1_B_3 c i a1 h1 a2 h2 a3 h3 a4 h4 hc x0 x1 x2 xo)]
  unfold kernelRun1_B
  dsimp only
  sl_unfold_words
  rw [View.canon_unit_zero hz]
  simp only [View.readAt_eq_ld, h1.read_unread, h2.read_unread, h3.read_unread, h4.read_unread,
    View.ld_unit_zero (S := S96x128) hz, View.ld_unit_zero (S := S96x1) hz, View.ld_unit_zero (S := S96x256) hz]

/-- At the first point the body resets the block to the zero payload, reads it back, and leaves the accumulating
    payload over that zero block: the later store covers the block, and its load reads the reset. -/
theorem out_A_eq (c : Dev nD) (i : grid1.Coords) (a1 : Memref sig .tc .vmem S96x128 .f32) (h1 : a1.IsWhole)
    (a2 : Memref sig .tc .vmem S96x1 .f32) (h2 : a2.IsWhole) (a3 : Memref sig .tc .vmem S96x1 .f32) (h3 : a3.IsWhole)
    (a4 : Memref sig .tc .vmem S96x256 .f32) (h4 : a4.IsWhole) (hc : cond1_0 i)
    (x0 : Vec F S96x128 .f32) (x1 : Vec F S96x1 .f32) (x2 : Vec F S96x1 .f32) :
    out1_A_3 c i a1 h1 a2 h2 a3 h3 a4 h4 hc x0 x1 x2 = k1_pay2 x0 x1 x2 (k1_pay1 (F := F)) := by
  unfold out1_A_3
  rw [View.read_writes_eq_canon _ _ _ (cover1_A_3 c i a1 h1 a2 h2 a3 h3 a4 h4 hc x0 x1 x2)]
  unfold kernelRun1_A
  dsimp only
  sl_unfold_words
  rw [View.canon_cons_unit_zero (S := S96x256) hz, View.readCov_unit_zero (S := S96x256) _ hz]
  simp only [View.readAt_eq_ld, h1.read_unread, h2.read_unread, h3.read_unread,
    View.ld_unit_zero (S := S96x128) hz, View.ld_unit_zero (S := S96x1) hz, View.ld_unit_zero (S := S96x256) hz]

end Pieces

/-! ## The payloads are tables of reals -/

/-- The reset payload is the zero table. -/
theorem pay1_isReal (j : S96x256.Idx) : IsReal (k1_pay1 (F := Ideal) j) := by
  show IsReal (Ideal.ofBits .f32 0x00000000#32)
  rw [Ideal.ofBits_zero_f32]
  exact isReal_zero

/-- The accumulating payload over a table of reals is a table of reals: the old entry plus a lane sum of converted
    integers, whatever the pixels and the rows' extremes are. -/
theorem pay2_isReal (v3 : Vec Ideal S96x128 .f32) (v8 v10 : Vec Ideal S96x1 .f32) (v36 : Vec Ideal S96x256 .f32)
    (h : ∀ j, IsReal (v36 j)) (j : S96x256.Idx) : IsReal (k1_pay2 (F := Ideal) v3 v8 v10 v36 j) := by
  unfold k1_pay2
  exact isReal_addf _ _ (fun k => h _) (fun k => isReal_multiReduction_sitofp _ _ _ _ _ k) j

/-- Case B keeps the block a table of reals. -/
theorem out_B_isReal (c : Dev nD) (i : grid1.Coords) (a1 : Memref sig .tc .vmem S96x128 .f32) (h1 : a1.IsWhole)
    (a2 : Memref sig .tc .vmem S96x1 .f32) (h2 : a2.IsWhole) (a3 : Memref sig .tc .vmem S96x1 .f32) (h3 : a3.IsWhole)
    (a4 : Memref sig .tc .vmem S96x256 .f32) (h4 : a4.IsWhole) (hc : ¬cond1_0 i)
    (x0 : Vec Ideal S96x128 .f32) (x1 : Vec Ideal S96x1 .f32) (x2 : Vec Ideal S96x1 .f32) (xo : Vec Ideal S96x256 .f32)
    (hxo : ∀ j, IsReal (xo j)) (j : S96x256.Idx) :
    IsReal (out1_B_3 (F := Ideal) c i a1 h1 a2 h2 a3 h3 a4 h4 hc x0 x1 x2 xo j) := by
  rw [out_B_eq]
  exact pay2_isReal x0 x1 x2 xo hxo j

/-- Case A makes the block a table of reals. -/
theorem out_A_isReal (c : Dev nD) (i : grid1.Coords) (a1 : Memref sig .tc .vmem S96x128 .f32) (h1 : a1.IsWhole)
    (a2 : Memref sig .tc .vmem S96x1 .f32) (h2 : a2.IsWhole) (a3 : Memref sig .tc .vmem S96x1 .f32) (h3 : a3.IsWhole)
    (a4 : Memref sig .tc .vmem S96x256 .f32) (h4 : a4.IsWhole) (hc : cond1_0 i)
    (x0 : Vec Ideal S96x128 .f32) (x1 : Vec Ideal S96x1 .f32) (x2 : Vec Ideal S96x1 .f32) (j : S96x256.Idx) :
    IsReal (out1_A_3 (F := Ideal) c i a1 h1 a2 h2 a3 h3 a4 h4 hc x0 x1 x2 j) := by
  rw [out_A_eq]
  exact pay2_isReal x0 x1 x2 _ pay1_isReal j

/-! ## After every point the block is a table of reals -/

variable (V : (c : Dev nD) → (b : Ref sig .tc) → Buf (Elt Ideal) ((c : Thread nD τ).loc b))

/-- By induction on the grid point: the first point resets and accumulates, every later one accumulates over what the
    point before left. -/
theorem outsAt_isReal (c : Dev nD) : ∀ (n : ℕ) (h : n < cfg1.N) (j : S96x256.Idx), IsReal (outsAt1 (F := Ideal) V c n h j)
  | 0, h, j => by
    rw [outsAt1_A V c ⟨0, h⟩ rfl]
    exact out_A_isReal c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩)
      (ms1_3 ⟨0, h⟩) (hs1_3 ⟨0, h⟩) _ (iblk1 V c 0 ⟨0, h⟩) (iblk1 V c 1 ⟨0, h⟩) (iblk1 V c 2 ⟨0, h⟩) j
  | n + 1, h, j => by
    have hN : cfg1.N = 2048 := N_1
    have hB : ¬(⟨n + 1, h⟩ : Fin cfg1.N).val % 2048 = 0 := by dsimp only; omega
    rw [outsAt1_B V c ⟨n + 1, h⟩ hB]
    exact out_B_isReal c (grid1.coords ⟨n + 1, h⟩) (ms1_0 ⟨n + 1, h⟩) (hs1_0 ⟨n + 1, h⟩) (ms1_1 ⟨n + 1, h⟩) (hs1_1 ⟨n + 1, h⟩)
      (ms1_2 ⟨n + 1, h⟩) (hs1_2 ⟨n + 1, h⟩) (ms1_3 ⟨n + 1, h⟩) (hs1_3 ⟨n + 1, h⟩) _ (iblk1 V c 0 ⟨n + 1, h⟩) (iblk1 V c 1 ⟨n + 1, h⟩)
      (iblk1 V c 2 ⟨n + 1, h⟩) _ (fun k => outsAt_isReal c n _ k) j

/-! ## The array written back is a table of reals -/

/-- The last grid point: the one write-back of the histogram block. -/
abbrev tLast : Fin cfg1.N := ⟨2047, by decide⟩

/-- After the run every entry of the histogram array is a real: the block is written back once, after the last
    point; that block is the whole array, and every entry written is an entry of the block's contents then. -/
theorem arr_isReal (c : Dev nD) (i : S96x256.Idx) : IsReal ((dat1 (F := Ideal) V c).arrAt 3 cfg1.N i) := by
  refine (dat1 (F := Ideal) V c).arrAt_forall_of_cover 3 (fun _ v => IsReal v) ?hP ?hcover i
  case hP =>
    intro t hf y
    show IsReal ((dat1 (F := Ideal) V c).after 3 t _)
    rw [after1_3]
    exact outsAt_isReal V c t.val t.isLt _
  case hcover =>
    intro i
    refine ⟨tLast, (flush1_3 tLast).mpr rfl, ?_⟩
    show i ∈ ((View.whole main_v2).slice (win1_3.rect tLast)).set
    rw [View.set_slice_whole, Rect.mem_set_unit]
    intro a
    have h0 : (i 0 : Nat) < 96 := (i 0).isLt
    have h1 : (i 1 : Nat) < 256 := (i 1).isLt
    match a with
    | ⟨0, _⟩ =>
      show win1_3.index tLast 0 * win1_3.size 0 ≤ (i 0 : Nat) ∧ (i 0 : Nat) < win1_3.index tLast 0 * win1_3.size 0 + win1_3.xsize (grid1.coords tLast) 0
      rw [show win1_3.index tLast 0 * win1_3.size 0 = 0 from by decide +kernel, show win1_3.xsize (grid1.coords tLast) 0 = 96 from by decide +kernel]; omega
    | ⟨1, _⟩ =>
      show win1_3.index tLast 1 * win1_3.size 1 ≤ (i 1 : Nat) ∧ (i 1 : Nat) < win1_3.index tLast 1 * win1_3.size 1 + win1_3.xsize (grid1.coords tLast) 1
      rw [show win1_3.index tLast 1 * win1_3.size 1 = 0 from by decide +kernel, show win1_3.xsize (grid1.coords tLast) 1 = 256 from by decide +kernel]; omega

end Cert.KernelIdeal.Hist

end
-- ==== Proof.KValue.lean ====
/-
  The idealized kernel program's result is the zero sum over the divisor.

  After the histogram region the host slices off the padding bin, reshapes to (sample, channel, bin), permutes the
  channels by a gather, and takes the mean absolute difference of that table WITH ITSELF. Slice, reshape and gather
  only re-read entries of the histogram array, which is a table of reals after the region's run; so the difference is
  zero at every entry, its absolute value is zero, and the sum from the zero start is zero. What is left is that zero
  divided by the entry count, stated as it stands.
-/
import proofs.«178433_j56521769615944_1_alg».proof.Proof.KRun
import proofs.«178433_j56521769615944_1_alg».proof.Proof.KHist
import proofs.«178433_j56521769615944_1_alg».proof.Proof.LibFinite
import Idealize.ShloMosaic.Lib.StableHlo.Run

noncomputable section

namespace Cert.KernelIdeal.KValue

open Cert.KernelIdeal Cert.KernelIdeal.Gen Cert.KernelIdeal.Hist Cert.LibFinite
open Idealize.ShloMosaic Idealize.ShloMosaic.TcCoe Idealize.SL.Sem Idealize.ShloMosaic.StableHlo

/-- The channel permutation's start indices, as the host computes them from the constant table. -/
def permIdx (W : Valuation τ sig (Elt Ideal)) : IVec S3x1 32 :=
  broadcastInDim S3x1 ![0] bcast_S3_S3x1_0
    (select (cmpi .slt (W (main_c : DevRef τ sig)) (broadcastInDim S3 ![] bcast_S_S3 (constantI S_ 32 0#32)))
      (addi (W (main_c : DevRef τ sig)) (broadcastInDim S3 ![] bcast_S_S3 (constantI S_ 32 3#32)))
      (W (main_c : DevRef τ sig)))

/-- The padded histogram without its padding bin, as (sample, channel, bin). -/
def sliced (W : Valuation τ sig (Elt Ideal)) : FVec Ideal S32x3x255 .f32 :=
  shapeCast S32x3x255 (extractStridedSlice S96x255 ![0, 0] (W (main_v2 : DevRef τ sig)) slices_S96x256_S96x255_0_0) shapeCasts_S96x255_S32x3x255

set_option maxHeartbeats 1000000 in
/-- The host stretch after the regions: the mean absolute difference of the permuted table with itself. -/
theorem tail_eq (W : Valuation τ sig (Elt Ideal)) :
    after (hostOps2 (F := Ideal)) W (main_v15 : DevRef τ sig)
      = Host.divf (Host.reduceAdd
          (Host.absf (subf
            (Host.gather gather_S32x3x255_S3x1_S32x3x255_02_1_n_n_1_1_321255 (sliced W) (permIdx W))
            (Host.gather gather_S32x3x255_S3x1_S32x3x255_02_1_n_n_1_1_321255 (sliced W) (permIdx W))))
          (constant (F := Ideal) S_ .f32 0x00000000#32) reducesTo_S32x3x255_S_d0_1_2 h_S_)
        (constant (F := Ideal) S_ .f32 0x46BF4000#32) := by
  after_results
  rfl

variable (m : (ℓ : Loc nD τ sig) → Buf (Elt Ideal) ℓ) (ρ : Dev nD → PrngReg)

/-- The histogram region leaves its output array a table of reals. -/
theorem hist_isReal (c : Dev nD) (i : S96x256.Idx) : IsReal (W3 m ρ c (Proc.devRef .tc main_v2) i) := by
  rw [show W3 m ρ c (Proc.devRef .tc main_v2) = (dat1 (V2 m ρ) c).arrAt 3 cfg1.N from W3_arr m ρ c 3]
  exact arr_isReal (V2 m ρ) c i

/-- Slice and reshape only re-read entries of that array. -/
theorem sliced_isReal (c : Dev nD) (i : S32x3x255.Idx) : IsReal (sliced (W3 m ρ c) i) :=
  hist_isReal m ρ c _

/-- So the program's result is the zero sum over the divisor. -/
theorem result_eq (c : Dev nD) :
    W4 m ρ c (Proc.devRef .tc main_v15) = Host.divf (fun _ => (0 : EReal)) (constant (F := Ideal) S_ .f32 0x46BF4000#32) := by
  show after (hostOps2 (F := Ideal)) (W3 m ρ c) (main_v15 : DevRef τ sig) = _
  rw [tail_eq, sum_abs_sub_self_gather _ (sliced (W3 m ρ c)) _ (sliced_isReal m ρ c)]

end Cert.KernelIdeal.KValue

end
-- ==== Proof.RefRun.lean ====
/-
  The reference program's run, read back.

  The reference's @main is a straight line of host operations: scale and round the image, take each
  (sample, channel) row's least and greatest value, turn every pixel into a bin number, scatter-add a one
  into a zero table at (sample, channel, bin), permute the channels by a gather, and average the absolute
  difference of that table WITH ITSELF. Its three outlined helpers (the rounding, the select of the
  bin width, the clip of the bin number) are listed here at their call sites, over the buffers each call
  names, so that @main is one list of operations and its run is the fold of that list over the launch
  memory. The list is cut where the scatter begins: everything before it only prepares the scatter's index
  array and the zero table, everything after it is the histogram and its self-difference.
-/
import proofs.«178433_j56521769615944_1_alg».proof.Defs
import proofs.«178433_j56521769615944_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
open Idealize.ShloMosaic.StableHlo

variable {F : FTy → Type} [FloatOps F]

/-- The operations up to the scatter's index array: the rounded image, the rows' extremes, the bin numbers, the
    (sample, channel, bin) index triples, and the zero table the scatter starts from. -/
abbrev opsA : List (HloOp τ sig (Elt F)) :=
  [ nullary main_c (fun i => lit0 (S3.rowMajor i)),
    nullary main_cst (constant S_ .f32 0x437F0000#32),
    unary main_cst main_v0 (broadcastInDim S32x3x512x512 ![] bcast_S_S32x3x512x512),
    binary main_arg0 main_v0 main_v1 mulf,
    TRef.unary (.of main_v1) main_call0.v0 Host.roundeven,
    reshape main_v2 main_v3 rfl shapeCasts_S32x3x512x512_S32x3x262144,
    nullary main_cst_0 (constant S_ .f32 0x7F800000#32),
    binary main_v3 main_cst_0 main_v4 (fun x v => Host.reduce FloatOps.minimumf x v reducesTo_S32x3x262144_S32x3_d2 h_S_),
    unary main_v4 main_v5 (broadcastInDim S32x3x1 ![0, 1] bcast_S32x3_S32x3x1_0_1),
    nullary main_cst_1 (constant S_ .f32 0xFF800000#32),
    binary main_v3 main_cst_1 main_v6 (fun x v => Host.reduce FloatOps.maximumf x v reducesTo_S32x3x262144_S32x3_d2 h_S_),
    unary main_v6 main_v7 (broadcastInDim S32x3x1 ![0, 1] bcast_S32x3_S32x3x1_0_1),
    binary main_v7 main_v5 main_v8 (cmpf .ogt),
    binary main_v7 main_v5 main_v9 subf,
    nullary main_cst_2 (constant S_ .f32 0x3F800000#32),
    unary main_cst_2 main_v10 (broadcastInDim S32x3x1 ![] bcast_S_S32x3x1),
    TRef.ternary (.of main_v8) (.of main_v9) (.of main_v10) main_call1.v0 select,
    unary main_v5 main_v12 (broadcastInDim S32x3x262144 ![0, 1, 2] bcast_S32x3x1_S32x3x262144_0_1_2),
    binary main_v3 main_v12 main_v13 subf,
    unary main_v11 main_v14 (broadcastInDim S32x3x262144 ![0, 1, 2] bcast_S32x3x1_S32x3x262144_0_1_2),
    binary main_v13 main_v14 main_v15 Host.divf,
    nullary main_cst_3 (constant S_ .f32 0x437F0000#32),
    unary main_cst_3 main_v16 (broadcastInDim S32x3x262144 ![] bcast_S_S32x3x262144),
    binary main_v15 main_v16 main_v17 mulf,
    unary main_v17 main_v18 Host.floor,
    nullary main_c_4 (constantI S_ 32 0#32),
    nullary main_c_5 (constantI S_ 32 254#32),
    TRef.unary (.of main_c_4) main_call2.v0 (sitofp .f32),
    TRef.unary main_call2.v0 main_call2.v1 (broadcastInDim S32x3x262144 ![] bcast_S_S32x3x262144),
    TRef.binary main_call2.v1 (.of main_v18) main_call2.v2 maximumf,
    TRef.unary (.of main_c_5) main_call2.v3 (sitofp .f32),
    TRef.unary main_call2.v3 main_call2.v4 (broadcastInDim S32x3x262144 ![] bcast_S_S32x3x262144),
    TRef.binary main_call2.v4 main_call2.v2 main_call2.v5 minimumf,
    unary main_v19 main_v20 (fptosi 32),
    nullary main_v21 (iotaInDim S32 32 0),
    unary main_v21 main_v22 (broadcastInDim S32x1x1 ![0] bcast_S32_S32x1x1_0),
    nullary main_v23 (iotaInDim S3 32 0),
    unary main_v23 main_v24 (broadcastInDim S1x3x1 ![1] bcast_S3_S1x3x1_1),
    nullary main_cst_6 (constant S_ .f32 0x00000000#32),
    unary main_cst_6 main_v25 (broadcastInDim S32x3x255 ![] bcast_S_S32x3x255),
    nullary main_c_7 (constantI S_ 32 0#32),
    unary main_c_7 main_v26 (broadcastInDim S32x1x1 ![] bcast_S_S32x1x1),
    binary main_v22 main_v26 main_v27 (cmpi .slt),
    nullary main_c_8 (constantI S_ 32 32#32),
    unary main_c_8 main_v28 (broadcastInDim S32x1x1 ![] bcast_S_S32x1x1),
    binary main_v22 main_v28 main_v29 addi,
    ternary main_v27 main_v29 main_v22 main_v30 select,
    nullary main_c_9 (constantI S_ 32 0#32),
    unary main_c_9 main_v31 (broadcastInDim S1x3x1 ![] bcast_S_S1x3x1),
    binary main_v24 main_v31 main_v32 (cmpi .slt),
    nullary main_c_10 (constantI S_ 32 3#32),
    unary main_c_10 main_v33 (broadcastInDim S1x3x1 ![] bcast_S_S1x3x1),
    binary main_v24 main_v33 main_v34 addi,
    ternary main_v32 main_v34 main_v24 main_v35 select,
    nullary main_c_11 (constantI S_ 32 0#32),
    unary main_c_11 main_v36 (broadcastInDim S32x3x262144 ![] bcast_S_S32x3x262144),
    binary main_v20 main_v36 main_v37 (cmpi .slt),
    nullary main_c_12 (constantI S_ 32 255#32),
    unary main_c_12 main_v38 (broadcastInDim S32x3x262144 ![] bcast_S_S32x3x262144),
    binary main_v20 main_v38 main_v39 addi,
    ternary main_v37 main_v39 main_v20 main_v40 select,
    unary main_v30 main_v41 (broadcastInDim S32x3x262144 ![0, 1, 2] bcast_S32x1x1_S32x3x262144_0_1_2),
    unary main_v35 main_v42 (broadcastInDim S32x3x262144 ![0, 1, 2] bcast_S1x3x1_S32x3x262144_0_1_2),
    unary main_v41 main_v43 (broadcastInDim S32x3x262144x1 ![0, 1, 2] bcast_S32x3x262144_S32x3x262144x1_0_1_2),
    unary main_v42 main_v44 (broadcastInDim S32x3x262144x1 ![0, 1, 2] bcast_S32x3x262144_S32x3x262144x1_0_1_2),
    unary main_v40 main_v45 (broadcastInDim S32x3x262144x1 ![0, 1, 2] bcast_S32x3x262144_S32x3x262144x1_0_1_2),
    nary ![main_v43, main_v44, main_v45] main_v46 (fun u => concatenate S32x3x262144x3 3 [⟨S32x3x262144x1, u 0⟩, ⟨S32x3x262144x1, u 1⟩, ⟨S32x3x262144x1, u 2⟩] concatenates_S32x3x262144x1_S32x3x262144x1_S32x3x262144x1_S32x3x262144x3_d3) ]

/-- The operations from the scatter on: the histogram (a one added at every index triple), the channel permutation,
    and the mean of the absolute self-difference. -/
abbrev opsB : List (HloOp τ sig (Elt F)) :=
  [ nullary main_cst_13 (constant S_ .f32 0x3F800000#32),
    unary main_cst_13 main_v47 (broadcastInDim S32x3x262144 ![] bcast_S_S32x3x262144),
    ternary main_v25 main_v46 main_v47 main_v48 (fun x i u => Host.scatterAdd scatter_S32x3x255_S32x3x262144x3_S32x3x262144_n_012_012_3 x i u),
    nullary main_c_14 (constantI S_ 32 0#32),
    unary main_c_14 main_v49 (broadcastInDim S3 ![] bcast_S_S3),
    binary main_c main_v49 main_v50 (cmpi .slt),
    nullary main_c_15 (constantI S_ 32 3#32),
    unary main_c_15 main_v51 (broadcastInDim S3 ![] bcast_S_S3),
    binary main_c main_v51 main_v52 addi,
    ternary main_v50 main_v52 main_c main_v53 select,
    unary main_v53 main_v54 (broadcastInDim S3x1 ![0] bcast_S3_S3x1_0),
    binary main_v48 main_v54 main_v55 (fun x i => Host.gather gather_S32x3x255_S3x1_S32x3x255_02_1_n_n_1_1_321255 x i),
    binary main_v55 main_v55 main_v56 subf,
    unary main_v56 main_v57 Host.absf,
    nullary main_cst_16 (constant S_ .f32 0x00000000#32),
    binary main_v57 main_cst_16 main_v58 (fun x v => Host.reduceAdd x v reducesTo_S32x3x255_S_d0_1_2 h_S_),
    nullary main_cst_17 (constant S_ .f32 0x46BF4000#32),
    binary main_v58 main_cst_17 main_v59 Host.divf ]

/-- @main's operations, in order. -/
abbrev ops : List (HloOp τ sig (Elt F)) := opsA ++ opsB

-- some ninety binds re-associated: the rewrite under the chain recurses once per statement
set_option maxRecDepth 8192 in
set_option maxHeartbeats 4000000 in
/-- @main is that straight line: the two printed windows in order, the helpers' bodies unfolded at their calls and the
    call records at their fields. -/
theorem main_eq (c : Dev nD) : main (F := F) c = seq ops := by
  simp only [main, main_part0, main_part1, fn_round.body, fn_where.body, fn_clip.body, ops, opsA, opsB,
    List.cons_append, List.nil_append, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., nullary_bufs_sub .., unary_bufs_sub .., binary_bufs_sub .., unary_bufs_sub .., reshape_bufs_sub ..,
    nullary_bufs_sub .., binary_bufs_sub .., unary_bufs_sub .., nullary_bufs_sub .., binary_bufs_sub .., unary_bufs_sub ..,
    binary_bufs_sub .., binary_bufs_sub .., nullary_bufs_sub .., unary_bufs_sub .., ternary_bufs_sub .., unary_bufs_sub ..,
    binary_bufs_sub .., unary_bufs_sub .., binary_bufs_sub .., nullary_bufs_sub .., unary_bufs_sub .., binary_bufs_sub ..,
    unary_bufs_sub .., nullary_bufs_sub .., nullary_bufs_sub .., unary_bufs_sub .., unary_bufs_sub .., binary_bufs_sub ..,
    unary_bufs_sub .., unary_bufs_sub .., binary_bufs_sub .., unary_bufs_sub .., nullary_bufs_sub .., unary_bufs_sub ..,
    nullary_bufs_sub .., unary_bufs_sub .., nullary_bufs_sub .., unary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., unary_bufs_sub .., unary_bufs_sub .., unary_bufs_sub .., unary_bufs_sub ..,
    nary_bufs_sub .., nullary_bufs_sub .., unary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., unary_bufs_sub .., nullary_bufs_sub .., binary_bufs_sub .., nullary_bufs_sub ..,
    binary_bufs_sub ..⟩

/-- For any float values, from any memory with zero counters: every weakly fair execution of @main terminates, and
    every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefValue.lean ====
/-
  The reference's result is the zero sum over the divisor.

  The reference scatter-adds a one into a zero table at every (sample, channel, bin) index triple: at the ideal
  instance each entry of the resulting histogram is zero plus a finite sum of ones, a real number, whatever the
  index triples are (the pixels may be anything: the bin numbers only choose WHERE the ones land). The channel
  permutation re-reads entries of that table, so the table minus itself is zero at every entry, its absolute value is
  zero, and the sum of those zeros from the zero start is zero. What is left is that zero divided by the entry count,
  which is stated as it stands: the kernel's program ends in the same quotient.
-/
import proofs.«178433_j56521769615944_1_alg».proof.Proof.RefRun
import proofs.«178433_j56521769615944_1_alg».proof.Proof.LibFinite

noncomputable section

namespace Cert.ReferenceIdeal.RefValue

open Cert.ReferenceIdeal Cert.ReferenceIdeal.Gen Cert.ReferenceIdeal.RefRun Cert.LibFinite
open Idealize.ShloMosaic Idealize.ShloMosaic.TcCoe Idealize.SL.Sem Idealize.ShloMosaic.StableHlo

/-- The contents after two stretches of operations are the second stretch's fold over the first's. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The table the scatter starts from is the zero table. -/
theorem v25_eq (V : Valuation τ sig (Elt Ideal)) :
    after (opsA (F := Ideal)) V (main_v25 : DevRef τ sig)
      = broadcastInDim S32x3x255 ![] bcast_S_S32x3x255 (constant (F := Ideal) S_ .f32 0x00000000#32) := by
  after_results

/-- The channel permutation's start indices, as the host computes them from the constant table (an entry below zero
    would be wrapped by the axis length: none is, but the operations are there). -/
def permIdx (W : Valuation τ sig (Elt Ideal)) : IVec S3x1 32 :=
  broadcastInDim S3x1 ![0] bcast_S3_S3x1_0
    (select (cmpi .slt (W (main_c : DevRef τ sig)) (broadcastInDim S3 ![] bcast_S_S3 (constantI S_ 32 0#32)))
      (addi (W (main_c : DevRef τ sig)) (broadcastInDim S3 ![] bcast_S_S3 (constantI S_ 32 3#32)))
      (W (main_c : DevRef τ sig)))

/-- The histogram: a one added into the starting table at every index triple. -/
def hist (W : Valuation τ sig (Elt Ideal)) : FVec Ideal S32x3x255 .f32 :=
  Host.scatterAdd scatter_S32x3x255_S32x3x262144x3_S32x3x262144_n_012_012_3 (W (main_v25 : DevRef τ sig)) (W (main_v46 : DevRef τ sig))
    (broadcastInDim S32x3x262144 ![] bcast_S_S32x3x262144 (constant (F := Ideal) S_ .f32 0x3F800000#32))

set_option maxHeartbeats 1000000 in
/-- From the scatter on, the result is the mean absolute difference of the permuted histogram with itself. -/
theorem tail_eq (W : Valuation τ sig (Elt Ideal)) :
    after (opsB (F := Ideal)) W (main_v59 : DevRef τ sig)
      = Host.divf (Host.reduceAdd
          (Host.absf (subf
            (Host.gather gather_S32x3x255_S3x1_S32x3x255_02_1_n_n_1_1_321255 (hist W) (permIdx W))
            (Host.gather gather_S32x3x255_S3x1_S32x3x255_02_1_n_n_1_1_321255 (hist W) (permIdx W))))
          (constant (F := Ideal) S_ .f32 0x00000000#32) reducesTo_S32x3x255_S_d0_1_2 h_S_)
        (constant (F := Ideal) S_ .f32 0x46BF4000#32) := by
  after_results
  rfl

/-- The histogram over the zero table is a table of reals: zero plus a finite sum of ones. -/
theorem hist_isReal (V : Valuation τ sig (Elt Ideal)) (i : S32x3x255.Idx) : IsReal (hist (after (opsA (F := Ideal)) V) i) := by
  unfold hist
  rw [v25_eq V]
  exact isReal_scatterAdd _ _ _ _
    (fun _ => show IsReal (Ideal.ofBits .f32 0x00000000#32) from isReal_ofBits_f32 _ (by decide))
    (fun _ => show IsReal (Ideal.ofBits .f32 0x3F800000#32) from isReal_ofBits_f32 _ (by decide)) i

/-- The reference's result: the zero sum over the divisor. -/
theorem result_eq (V : Valuation τ sig (Elt Ideal)) :
    after (ops (F := Ideal)) V (main_v59 : DevRef τ sig)
      = Host.divf (fun _ => (0 : EReal)) (constant (F := Ideal) S_ .f32 0x46BF4000#32) := by
  show after (opsA ++ opsB) V _ = _
  rw [after_append, tail_eq, sum_abs_sub_self_gather _ (hist (after (opsA (F := Ideal)) V)) _ (hist_isReal V)]

set_option maxHeartbeats 1000000 in
/-- No operation writes the first argument. -/
theorem arg0_eq (V : Valuation τ sig (Elt Ideal)) :
    after (ops (F := Ideal)) V (main_arg0 : DevRef τ sig) = V (main_arg0 : DevRef τ sig) := by
  show after (opsA ++ opsB) V _ = _
  rw [after_append]
  after_results_simp

set_option maxHeartbeats 1000000 in
/-- No operation writes the second argument. -/
theorem arg1_eq (V : Valuation τ sig (Elt Ideal)) :
    after (ops (F := Ideal)) V (main_arg1 : DevRef τ sig) = V (main_arg1 : DevRef τ sig) := by
  show after (opsA ++ opsB) V _ = _
  rw [after_append]
  after_results_simp

end Cert.ReferenceIdeal.RefValue

end
-- ==== Proof.lean ====
/-
  The certificate: a two-pass colour histogram whose final number is identically zero.

  Both programs compute, for every (sample, channel) row of an image, a 255-bin histogram of the rounded pixel
  values between the row's least and greatest value, permute the channels, and return the mean of
  `|h - h|` — the histogram compared WITH ITSELF. The kernel builds the histogram in two pallas_calls (the rows'
  extremes over 32 column tiles; then, over 2048 column tiles, a count per bin by comparing every pixel's bin number
  with every bin and summing the comparison bits, accumulated into one resident output block). The reference builds it
  with one scatter-add of ones into a zero table.

  At the ideal instance floats are extended reals and `x - x` is zero only off the infinities, so the claim comes down
  to ONE fact on each side: the histogram is a table of real numbers. On the kernel's side an entry is a finite sum,
  over the grid points, of lane sums of integers converted to floats (Proof/KHist.lean, by induction on the grid
  point); on the reference's side it is zero plus a finite sum of ones (Proof/RefValue.lean). Neither needs to know
  WHICH bin a pixel falls in, nor that the inputs are finite. Both programs then end in the same quotient, the zero
  sum over the entry count (Proof/KValue.lean, Proof/RefValue.lean), which is the common result.

  The kernel programs' frames are the generated ones; the idealized kernel's run with its result named is the same
  launch read at one more buffer (Proof/KRun.lean); the reference's run is the fold of its operations in order
  (Proof/RefRun.lean). The ideal pass rewrote nothing, so `preserves` holds trivially.
-/
import proofs.«178433_j56521769615944_1_alg».proof.Defs
import proofs.«178433_j56521769615944_1_alg».proof.Proof.Gen.Kernel
import proofs.«178433_j56521769615944_1_alg».proof.Proof.Gen.Kernel.Skeleton
import proofs.«178433_j56521769615944_1_alg».proof.Proof.Gen.Kernel.Launch
import proofs.«178433_j56521769615944_1_alg».proof.Proof.Gen.Kernel.Points
import proofs.«178433_j56521769615944_1_alg».proof.Proof.Gen.Kernel.Frame
import proofs.«178433_j56521769615944_1_alg».proof.Proof.Gen.KernelIdeal
import proofs.«178433_j56521769615944_1_alg».proof.Proof.Gen.KernelIdeal.Skeleton
import proofs.«178433_j56521769615944_1_alg».proof.Proof.Gen.KernelIdeal.Launch
import proofs.«178433_j56521769615944_1_alg».proof.Proof.Gen.KernelIdeal.Points
import proofs.«178433_j56521769615944_1_alg».proof.Proof.Gen.KernelIdeal.Frame
import proofs.«178433_j56521769615944_1_alg».proof.Proof.Gen.ReferenceIdeal
import proofs.«178433_j56521769615944_1_alg».proof.Proof.Gen.Pre_finite_inputs
import proofs.«178433_j56521769615944_1_alg».proof.Proof.KRun
import proofs.«178433_j56521769615944_1_alg».proof.Proof.KValue
import proofs.«178433_j56521769615944_1_alg».proof.Proof.RefRun
import proofs.«178433_j56521769615944_1_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs — a straight line of host operations — and none of them writes an argument. -/
theorem frame_ri : Cert.frame_ReferenceIdeal := fun m ρ _ =>
  (θ_run Cert.ReferenceIdeal.defs _ _).mono
    (fun _ h c => ⟨(h c Cert.ReferenceIdeal.main_arg0).trans (Cert.ReferenceIdeal.RefValue.arg0_eq _),
      (h c Cert.ReferenceIdeal.main_arg1).trans (Cert.ReferenceIdeal.RefValue.arg1_eq _)⟩)
    (Cert.ReferenceIdeal.RefRun.run_main (F := Ideal) m ρ)

/-- Both idealized programs end with the zero sum over the entry count: each one's histogram is a table of reals, so
    its difference with itself vanishes entry by entry. The memories' agreement on the arguments is not even used:
    the result does not depend on the image. -/
theorem algebraic : Cert.algebraic_KernelIdeal_ReferenceIdeal := by
  intro m ρ m' ρ' _ _
  refine ⟨fun _ => Host.divf (fun _ => (0 : EReal)) (constant (F := Ideal) Cert.KernelIdeal.S_ .f32 0x46BF4000#32), ?_, ?_⟩
  · exact (θ_run Cert.KernelIdeal.defs _ _).mono
      (fun _ h c => ⟨(h c).1.trans (Cert.KernelIdeal.KValue.result_eq m ρ c), (h c).2⟩)
      (Cert.KernelIdeal.KRun.run_main m ρ)
  · exact (θ_run Cert.ReferenceIdeal.defs _ _).mono
      (fun _ h c => ⟨(h c Cert.ReferenceIdeal.main_v59).trans (Cert.ReferenceIdeal.RefValue.result_eq _),
        (h c Cert.ReferenceIdeal.main_arg0).trans (Cert.ReferenceIdeal.RefValue.arg0_eq _),
        (h c Cert.ReferenceIdeal.main_arg1).trans (Cert.ReferenceIdeal.RefValue.arg1_eq _)⟩)
      (Cert.ReferenceIdeal.RefRun.run_main (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
